-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x1x1 : Shape := ⟨4, ![4096, 512, 1, 1]⟩
abbrev S_ : Shape := ⟨0, ![]⟩

class Facts : Prop where
  bcast_S_S4096x512x1x1 : S_.BroadcastsInDim S4096x512x1x1 (![] : Fin 0 → Fin S4096x512x1x1.rank)
  reducesTo_S4096x512x1x1_S_d0_1_2_3 : S4096x512x1x1.ReducesTo [0, 1, 2, 3] S_
  h_S_ : 0 < S_.numel

variable [Facts]

def fn {F : FTy → Type} [FloatOps F] (main_arg0 : FVec F S4096x512x1x1 .f32) (main_arg1 : FVec F S4096x512x1x1 .f32) : IVec S_ 1 :=
  let main_v0 : FVec F S4096x512x1x1 .f32 := Host.absf main_arg0
  let main_cst : FVec F S_ .f32 := constant S_ .f32 0x7F800000#32
  let main_v1 : FVec F S4096x512x1x1 .f32 := broadcastInDim S4096x512x1x1 ![] bcast_S_S4096x512x1x1 main_cst
  let main_v2 : IVec S4096x512x1x1 1 := cmpf .olt main_v0 main_v1
  let main_c : IVec S_ 1 := constantI S_ 1 1#1
  let main_v3 : IVec S_ 1 := (fun x v => Host.reduce IntOp.andi x v reducesTo_S4096x512x1x1_S_d0_1_2_3 h_S_) main_v2 main_c
  let main_v4 : FVec F S4096x512x1x1 .f32 := Host.absf main_arg1
  let main_cst_0 : FVec F S_ .f32 := constant S_ .f32 0x7F800000#32
  let main_v5 : FVec F S4096x512x1x1 .f32 := broadcastInDim S4096x512x1x1 ![] bcast_S_S4096x512x1x1 main_cst_0
  let main_v6 : IVec S4096x512x1x1 1 := cmpf .olt main_v4 main_v5
  let main_c_1 : IVec S_ 1 := constantI S_ 1 1#1
  let main_v7 : IVec S_ 1 := (fun x v => Host.reduce IntOp.andi x v reducesTo_S4096x512x1x1_S_d0_1_2_3 h_S_) main_v6 main_c_1
  let main_v8 : IVec S_ 1 := andi main_v3 main_v7
  main_v8
-- ==== Kernel.lean ====
abbrev S4096x512x1x1 : Shape := ⟨4, ![4096, 512, 1, 1]⟩
abbrev S4096x512 : Shape := ⟨2, ![4096, 512]⟩
abbrev S1x1 : Shape := ⟨2, ![1, 1]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S4096x512x1x1, .f32⟩
  | .hbm, ⟨1, _⟩ => ⟨S4096x512x1x1, .f32⟩
  | .hbm, ⟨2, _⟩ => ⟨S4096x512, .f32⟩
  | .hbm, ⟨3, _⟩ => ⟨S4096x512, .f32⟩
  | .hbm, ⟨4, _⟩ => ⟨S1x1, .f32⟩
  | .hbm, ⟨5, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x1, .f32⟩
  | .local _ .vmem, ⟨5, _⟩ => ⟨S1x1, .f32⟩
  | _, _ => ⟨S4096x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v49 : BitVec 1 := Scalar.cmpi .eq arg0 c3_i32
  let arg1 : BitVec 32 := BitVec.ofNat 32 (i 1).val
  let c7_i32 : BitVec 32 := 7#32
  let v50 : BitVec 1 := Scalar.cmpi .eq arg1 c7_i32
  let v51 : BitVec 1 := Scalar.andi v49 v50
  let v52 : BitVec 32 := Scalar.extui v51
  let c0_i32_16 : BitVec 32 := 0#32
  let v53 : BitVec 1 := Scalar.cmpi .ne v52 c0_i32_16
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S4096x512x1x1_S4096x512 : S4096x512x1x1.ShapeCasts S4096x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  reduces_S512x512_S512 : S512x512.Reduces [1] S512
  shapeCasts_S512_S512x1 : S512.ShapeCasts S512x1
  broadcasts_S1024x1_S1024x512 : S1024x1.Broadcasts S1024x512
  broadcasts_S512x1_S512x512 : S512x1.Broadcasts S512x512
  bitsLt_bf16_f32 : FTy.bits .bf16 < FTy.bits .f32
  transposes_S512x512_p1_0_S512x512 : S512x512.Transposes [1, 0] S512x512
  iota_S1024x512_d0_w32 : S1024x512.Iotas .tc 32 [0]
  iota_S1024x512_d1_w32 : S1024x512.Iotas .tc 32 [1]
  reduces_S1024x1_S1 : S1024x1.Reduces [0] S1
  shapeCasts_S1_S1x1 : S1.ShapeCasts S1x1
  shapeCasts_S1x1_S_ : S1x1.ShapeCasts S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x512x1x1 : Shape := ⟨4, ![4096, 512, 1, 1]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x512x1x1, .f32⟩
  | .hbm, ⟨1, _⟩ => ⟨S4096x512x1x1, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x4096, .f32⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x512x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  shapeCasts_S4096x512x1x1_S4096x512 : S4096x512x1x1.ShapeCasts S4096x512
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x4096 : S_.BroadcastsInDim S4096x4096 (![] : Fin 0 → Fin S4096x4096.rank)
  reducesTo_S4096x4096_S_d0_1 : S4096x4096.ReducesTo [0, 1] S_
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.KernelPieces.lean ====
/-
  What each control case of the kernel body leaves behind, as values: the first point zeroes the one-word
  accumulator and adds its tile's sum; every later point adds its tile's sum to what the point before left; the
  last point also writes the accumulator divided by the count into the output word.
-/
import proofs.«161010_j90417651516231_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle point: the accumulator ends at the old contents plus the tile's sum. -/
theorem scr_B (c : Dev nD) (i : grid0.Coords) (a2 : Memref sig .tc .vmem S1024x512 .f32) (h2 : a2.IsWhole)
    (a3 : Memref sig .tc .vmem S512x512 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 : Vec F S1024x512 .f32) (x1 : Vec F S512x512 .f32) (xs : Vec F S1x1 .f32) :
    sout0_B_0 c i a2 h2 a3 h3 a4 h4 a5 h5 hc0 hc1 x0 x1 xs = k0_pay1 (k0_pay4 i x0 x1) xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S1024x512) hz,
    View.ld_unit_zero (S := S512x512) hz, View.ld_unit_zero (S := S1x1) hz]

/-- The last point: the accumulator likewise. -/
theorem scr_C (c : Dev nD) (i : grid0.Coords) (a2 : Memref sig .tc .vmem S1024x512 .f32) (h2 : a2.IsWhole)
    (a3 : Memref sig .tc .vmem S512x512 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S1024x512 .f32) (x1 : Vec F S512x512 .f32) (xs : Vec F S1x1 .f32) :
    sout0_C_0 c i a2 h2 a3 h3 a4 h4 a5 h5 hc0 hc1 x0 x1 xs = k0_pay1 (k0_pay4 i x0 x1) xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x512) hz,
    View.ld_unit_zero (S := S512x512) hz, View.ld_unit_zero (S := S1x1) hz, View.readCov_unit_zero (S := S1x1) _ hz]

/-- The last point: the output word is the final accumulator over the count. -/
theorem out_C (c : Dev nD) (i : grid0.Coords) (a2 : Memref sig .tc .vmem S1024x512 .f32) (h2 : a2.IsWhole)
    (a3 : Memref sig .tc .vmem S512x512 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S1024x512 .f32) (x1 : Vec F S512x512 .f32) (xs : Vec F S1x1 .f32) :
    out0_C_2 c i a2 h2 a3 h3 a4 h4 a5 h5 hc0 hc1 x0 x1 xs = k0_pay2 (k0_pay1 (k0_pay4 i x0 x1) xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x512) hz,
    View.ld_unit_zero (S := S512x512) hz, View.ld_unit_zero (S := S1x1) hz, View.readCov_unit_zero (S := S1x1) _ hz]

/-- The first point: the accumulator is zeroed, read back, and ends at zero plus the tile's sum. -/
theorem scr_A (c : Dev nD) (i : grid0.Coords) (a2 : Memref sig .tc .vmem S1024x512 .f32) (h2 : a2.IsWhole)
    (a3 : Memref sig .tc .vmem S512x512 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 : Vec F S1024x512 .f32) (x1 : Vec F S512x512 .f32) :
    sout0_A_0 c i a2 h2 a3 h3 a4 h4 a5 h5 hc0 hc1 x0 x1 = k0_pay1 (k0_pay4 i x0 x1) (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, h5.read_unread, View.ld_unit_zero (S := S1024x512) hz,
    View.ld_unit_zero (S := S512x512) hz, View.ld_unit_zero (S := S1x1) hz, View.readCov_unit_zero (S := S1x1) _ hz]

end Cert.KernelIdeal.Pieces

end
-- ==== Proof.KernelAcc.lean ====
/-
  The kernel program's run read as a value, at any instance: the accumulator after each grid point is a chain of
  updates (zero plus the first tile's sum, then one tile's sum more per point), by induction on the point; the last
  point writes the chain's end over the count into the output array, whose one block is the whole array; the reshape
  after the region reads that array as the scalar result.
-/
import proofs.«161010_j90417651516231_1_alg».proof.Proof.KernelPieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ) (ρ : Dev nD → PrngReg)

/-- The block of rows of the first matrix that point t reads, and of the second. -/
abbrev xblk (c : Dev nD) (t : Fin cfg0.N) : Vec F S1024x512 .f32 := iblk m c 0 t
abbrev yblk (c : Dev nD) (t : Fin cfg0.N) : Vec F S512x512 .f32 := iblk m c 1 t

/-- The row sums of point t's masked similarity tile. -/
abbrev rows (c : Dev nD) (t : Fin cfg0.N) : FVec F S1024 .f32 := k0_pay4 (grid0.coords t) (xblk m c t) (yblk m c t)

/-- The accumulator after point n: zero plus the first tile's sum, then one tile's sum more per point. -/
def chain (c : Dev nD) : (n : ℕ) → n < cfg0.N → Vec F S1x1 .f32
  | 0, h => k0_pay1 (rows m c ⟨0, h⟩) (k0_pay3 (F := F))
  | n + 1, h => k0_pay1 (rows m c ⟨n + 1, h⟩) (chain c n (Nat.lt_of_succ_lt h))

/-- What the frame records for the accumulator after point n is that running sum: by induction on the point. -/
theorem scratch_eq (c : Dev nD) : ∀ (n : ℕ) (h : n < cfg0.N), (outsAt0 m c n h).2 = chain m c n h
  | 0, h => by
    rw [outsAt0_A m c ⟨0, h⟩ rfl (by show ¬(0 % 32 = 31); decide)]
    dsimp only
    exact scr_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (scr_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      exact congrArg (k0_pay1 (rows m c ⟨n + 1, h⟩)) (scratch_eq c n (Nat.lt_of_succ_lt h))
    · rw [outsAt0_B m c ⟨n + 1, h⟩ h0 h1]
      dsimp only
      refine (scr_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      exact congrArg (k0_pay1 (rows m c ⟨n + 1, h⟩)) (scratch_eq c n (Nat.lt_of_succ_lt h))

/-- The last grid point. -/
abbrev tLast : Fin cfg0.N := ⟨31, by rw [show cfg0.N = 32 from N_0]; decide⟩

/-- The output word: the accumulator after the last point over the count. -/
abbrev result (c : Dev nD) : Vec F S1x1 .f32 := k0_pay2 (chain m c 31 tLast.isLt)

/-- What the last point leaves in the output's staging buffer. -/
theorem out_last (c : Dev nD) : (outsAt0 m c 31 tLast.isLt).1 = result m c := by
  have h0 : ¬(tLast : Fin cfg0.N).val % 32 = 0 := by decide
  have h1 : (tLast : Fin cfg0.N).val % 32 = 31 := by decide
  rw [outsAt0_C m c tLast h0 h1]
  dsimp only
  refine (out_C c (grid0.coords tLast) (ms0_0 tLast) (hs0_0 tLast) (ms0_1 tLast) (hs0_1 tLast)
        (ms0_2 tLast) (hs0_2 tLast) scM0_0 (Memref.isWhole_whole _) _ _ (iblk m c 0 tLast) (iblk m c 1 tLast)
        (outsAt0 m c 30 (Nat.lt_of_succ_lt tLast.isLt)).2).trans ?_
  exact congrArg (fun z => k0_pay2 (k0_pay1 (rows m c tLast) z)) (scratch_eq m c 30 (Nat.lt_of_succ_lt tLast.isLt))

/-- The one write-back, at the last point, writes the result word: the output array is its own one block. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last]
  have hz' : (fun a => win0_2.index tLast a * main_v2.ty.shape.size a) = fun _ => 0 := funext fun a => by fin_cases a <;> decide +kernel
  exact (Memref.read_access_unit_zero (Elt F) main_v2 hz' (fun a => by rw [congrFun hz' a]; simp) (result m c)).symm

/-- So the output array ends holding the result word. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape after the region reads the output array as a scalar. -/
theorem tail_v3 (c : Dev nD) :
    Pipeline.afterTail₀ cfgs (dats m) 0 (V0 m) [hostOps1] c main_v3 = shapeCast S_ (result m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = result m c :=
    (Pipeline.withArrays_arr spec0 launch0.win.arr_inj c (V0 m c) (fun w => (dats m 0 c).arrAt w cfg0.N) 2).trans (final_o m c)
  funext i
  exact congrFun (congrArg (fun z => shapeCast S_ z shapeCasts_S1x1_S_) e) i

/-- The run, read: the scalar result is the result word, the two arguments end as they began. -/
theorem run : θ_run defs (onTc (τ := τ) (main (F := F))) ⟨m, fun _ => 0, ρ⟩ fun r => ∀ c : Dev nD,
      r.2.mem ((c.tc : Thread nD τ).loc main_v3) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_v3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Acc

end
-- ==== Proof.Spec.lean ====
/-
  The cosine-similarity loss as one function of the two row matrices, on the extended reals, and the way a tiling
  of the similarity matrix into 4 x 8 rectangles of 1024 x 512 entries splits its sum.

  For a matrix with rows of length 512 the clamped norm of row n is the larger of the root of the row's sum of
  squares and a fixed positive word; a row divided by it is the unit row; the similarity of row n of one matrix and
  row m of another is the inner product of their unit rows; entries on the diagonal (equal global row numbers) are
  replaced by zero; the loss is the sum of all the others divided by the number of entries, 2^24.
-/
import Idealize.ShloMosaic.PureOps.Ideal
import Idealize.ShloMosaic.PureOps.Ideal.Laws
import Idealize.ShloMosaic.Lib.ValueIdx

noncomputable section

open scoped BigOperators

namespace Cert.CosSpec

open Idealize.ShloMosaic Idealize.ShloMosaic.ValueIdx

/-- A matrix of R rows of length 512 over the extended reals. -/
abbrev Mat (R : Nat) : Type := (⟨2, ![R, 512]⟩ : Shape).Idx → EReal

/-- The floor under a row's norm. -/
def floorWord : EReal := Ideal.ofBits .f32 0x322BCC77#32

/-- The number of entries of the similarity matrix, 2^24, as the word both programs divide by. -/
def countWord : EReal := Ideal.ofBits .f32 0x4B800000#32

/-- The clamped norm of row n. -/
def rowNorm {R : Nat} (X : Mat R) (n : Fin R) : EReal :=
  max (Ideal.sqrt (∑ d : Fin 512, X (ix2 n d) * X (ix2 n d))) floorWord

/-- Entry d of the unit row n. -/
def unitRow {R : Nat} (X : Mat R) (n : Fin R) (d : Fin 512) : EReal :=
  Ideal.div (X (ix2 n d)) (rowNorm X n)

/-- The similarity of row n of X and row m of Y. -/
def cosim {R S : Nat} (X : Mat R) (Y : Mat S) (n : Fin R) (m : Fin S) : EReal :=
  ∑ d : Fin 512, unitRow X n d * unitRow Y m d

/-- The similarity with the diagonal zeroed: rows are numbered globally, row n of X being row a + n and row m of Y
    row b + m of the whole matrices. -/
def offDiag {R S : Nat} (X : Mat R) (Y : Mat S) (a b : Nat) (n : Fin R) (m : Fin S) : EReal :=
  if a + n.val = b + m.val then 0 else cosim X Y n m

/-- The sum over a rectangle of the similarity matrix whose corner is (a, b). -/
def tileSum {R S : Nat} (X : Mat R) (Y : Mat S) (a b : Nat) : EReal :=
  ∑ r : Fin R, ∑ c : Fin S, offDiag X Y a b r c

/-- The loss: the whole matrix's off-diagonal sum over the count. -/
def loss (X Y : Mat 4096) : EReal := Ideal.div (tileSum X Y 0 0) countWord

/-- Rows a .. a + R of a matrix of 4096 rows. -/
def rowsFrom (R a : Nat) (h : a + R ≤ 4096) (X : Mat 4096) : Mat R :=
  fun j => X (ix2 ⟨a + (j 0).val, by have := (j 0).isLt; simp at this; omega⟩ (j 1))

theorem rowsFrom_apply (R a : Nat) (h : a + R ≤ 4096) (X : Mat 4096) (r : Fin R) (d : Fin 512) :
    rowsFrom R a h X (ix2 r d) = X (ix2 ⟨a + r.val, by have := r.isLt; omega⟩ d) := rfl

/-- The unit rows of a band of rows are the unit rows of the whole matrix. -/
theorem unitRow_rowsFrom (R a : Nat) (h : a + R ≤ 4096) (X : Mat 4096) (r : Fin R) (d : Fin 512) :
    unitRow (rowsFrom R a h X) r d = unitRow X ⟨a + r.val, by have := r.isLt; omega⟩ d := rfl

theorem cosim_rowsFrom (R S a b : Nat) (ha : a + R ≤ 4096) (hb : b + S ≤ 4096) (X Y : Mat 4096) (r : Fin R) (c : Fin S) :
    cosim (rowsFrom R a ha X) (rowsFrom S b hb Y) r c
      = cosim X Y ⟨a + r.val, by have := r.isLt; omega⟩ ⟨b + c.val, by have := c.isLt; omega⟩ := rfl

/-- A sum over 4096 split into 4 bands of 1024. -/
theorem sum_bands4 (g : Fin 4096 → EReal) :
    ∑ n : Fin 4096, g n = ∑ i : Fin 4, ∑ r : Fin 1024, g ⟨1024 * i.val + r.val, by have := i.isLt; have := r.isLt; omega⟩ := by
  rw [← Equiv.sum_comp (finProdFinEquiv : Fin 4 × Fin 1024 ≃ Fin 4096), Fintype.sum_prod_type]
  refine Finset.sum_congr rfl fun i _ => Finset.sum_congr rfl fun r _ => congrArg g (Fin.ext ?_)
  show r.val + 1024 * i.val = 1024 * i.val + r.val
  omega

/-- A sum over 4096 split into 8 bands of 512. -/
theorem sum_bands8 (g : Fin 4096 → EReal) :
    ∑ n : Fin 4096, g n = ∑ j : Fin 8, ∑ c : Fin 512, g ⟨512 * j.val + c.val, by have := j.isLt; have := c.isLt; omega⟩ := by
  rw [← Equiv.sum_comp (finProdFinEquiv : Fin 8 × Fin 512 ≃ Fin 4096), Fintype.sum_prod_type]
  refine Finset.sum_congr rfl fun j _ => Finset.sum_congr rfl fun c _ => congrArg g (Fin.ext ?_)
  show c.val + 512 * j.val = 512 * j.val + c.val
  omega

/-- A sum over the 32 grid points, row-major over 4 x 8. -/
theorem sum_points (g : Fin 32 → EReal) :
    ∑ t : Fin 32, g t = ∑ i : Fin 4, ∑ j : Fin 8, g ⟨8 * i.val + j.val, by have := i.isLt; have := j.isLt; omega⟩ := by
  rw [← Equiv.sum_comp (finProdFinEquiv : Fin 4 × Fin 8 ≃ Fin 32), Fintype.sum_prod_type]
  refine Finset.sum_congr rfl fun i _ => Finset.sum_congr rfl fun j _ => congrArg g (Fin.ext ?_)
  show j.val + 8 * i.val = 8 * i.val + j.val
  omega

/-- The rectangle of the similarity matrix that grid point t covers: rows 1024 (t / 8) .., columns 512 (t % 8) .. -/
def pointSum (X Y : Mat 4096) (t : Fin 32) : EReal :=
  tileSum (rowsFrom 1024 (1024 * (t.val / 8)) (by have := t.isLt; omega) X)
    (rowsFrom 512 (512 * (t.val % 8)) (by have := t.isLt; omega) Y) (1024 * (t.val / 8)) (512 * (t.val % 8))

/-- The 32 rectangles tile the matrix: the whole off-diagonal sum is the sum of theirs. -/
theorem tileSum_eq_sum_points (X Y : Mat 4096) : tileSum X Y 0 0 = ∑ t : Fin 32, pointSum X Y t := by
  unfold tileSum
  rw [sum_bands4, sum_points]
  refine Finset.sum_congr rfl fun i _ => ?_
  have hi := i.isLt
  -- inside band i of the rows: split the columns into 8 bands, then exchange the two middle sums
  have : ∀ r : Fin 1024, (∑ c : Fin 4096, offDiag X Y 0 0 ⟨1024 * i.val + r.val, by have := r.isLt; omega⟩ c)
      = ∑ j : Fin 8, ∑ c : Fin 512, offDiag X Y 0 0 ⟨1024 * i.val + r.val, by have := r.isLt; omega⟩
          ⟨512 * j.val + c.val, by have := j.isLt; have := c.isLt; omega⟩ := fun r => sum_bands8 _
  simp only [this]
  rw [Finset.sum_comm]
  refine Finset.sum_congr rfl fun j _ => ?_
  have hj := j.isLt
  have hq : (8 * i.val + j.val) / 8 = i.val := by omega
  have hm : (8 * i.val + j.val) % 8 = j.val := by omega
  unfold pointSum tileSum
  refine Finset.sum_congr rfl fun r _ => Finset.sum_congr rfl fun c _ => ?_
  unfold offDiag
  simp only [hq, hm, zero_add, cosim_rowsFrom]

end Cert.CosSpec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Payload.lean ====
/-
  The kernel body's arithmetic read entry by entry on the extended reals.
-/
import proofs.«161010_j90417651516231_1_alg».proof.Proof.Gen.KernelIdeal.Skeleton
import proofs.«161010_j90417651516231_1_alg».proof.Proof.Spec
import proofs.«161010_j90417651516231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

section General
variable {α : Type}

/-- A vector of length a viewed as a column reads, at (p, u), its entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A sum along the rows of a matrix, read at row p, is the sum of that row's entries. -/
theorem rowReduce_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- A sum down the one column of a column matrix is the sum of its entries. -/
theorem colReduce_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction (F := Ideal) .add [0] ⟨1, ![1]⟩ src acc h hφ hacc (ix1 u) = ∑ k : Fin a, src (ix2 k (0 : Fin 1)) := by
  refine (Ideal.multiReduction_add_single src acc h hφ hacc (ix1 u)).trans ?_
  refine Finset.sum_congr rfl fun k _ => congrArg src (funext fun c => Fin.ext ?_)
  match c with
  | ⟨0, _⟩ => rfl
  | ⟨1, _⟩ => show (u : ℕ) = 0; omega

end General

/-- Two global row numbers, each a block offset plus a position inside the block, compared as 32-bit words: nothing
    wraps below 2^32, so the words are equal exactly when the numbers are. -/
theorem mask_word (i0 i1 r c : ℕ) (h0 : i0 < 4) (h1 : i1 < 8) (hr : r < 1024) (hc : c < 512) :
    IntOp.cmpi .eq (IntOp.addi (Scalar.muli (BitVec.ofNat 32 i0) 1024#32) (BitVec.ofNat 32 r))
        (IntOp.addi (Scalar.muli (BitVec.ofNat 32 i1) 512#32) (BitVec.ofNat 32 c))
      = if 1024 * i0 + r = 512 * i1 + c then 1#1 else 0#1 := by
  have e1 : IntOp.addi (Scalar.muli (BitVec.ofNat 32 i0) 1024#32) (BitVec.ofNat 32 r) = BitVec.ofNat 32 (1024 * i0 + r) := by
    apply BitVec.eq_of_toNat_eq
    simp only [IntOp.addi, Scalar.muli, IntOp.muli, BitVec.toNat_add, BitVec.toNat_mul, BitVec.toNat_ofNat]
    omega
  have e2 : IntOp.addi (Scalar.muli (BitVec.ofNat 32 i1) 512#32) (BitVec.ofNat 32 c) = BitVec.ofNat 32 (512 * i1 + c) := by
    apply BitVec.eq_of_toNat_eq
    simp only [IntOp.addi, Scalar.muli, IntOp.muli, BitVec.toNat_add, BitVec.toNat_mul, BitVec.toNat_ofNat]
    omega
  rw [e1, e2]
  unfold IntOp.cmpi
  by_cases h : 1024 * i0 + r = 512 * i1 + c
  · rw [if_pos h, h]
    simp
  · rw [if_neg h]
    have hne : BitVec.ofNat 32 (1024 * i0 + r) ≠ BitVec.ofNat 32 (512 * i1 + c) := fun he => h (by
      have := congrArg BitVec.toNat he
      simp only [BitVec.toNat_ofNat] at this
      omega)
    rw [beq_eq_false_iff_ne.mpr hne]
    rfl

/-- The comparison of the two global row numbers at entry (r, c) of the tile: the block offsets are splats of the
    grid coordinates' multiples, the positions inside the block the two coordinate counters. -/
theorem mask_apply (i0 i1 : ℕ) (h0 : i0 < 4) (h1 : i1 < 8) (r : Fin 1024) (c : Fin 512) :
    cmpi .eq
        (addi (broadcast S1024x512 (Scalar.muli (BitVec.ofNat 32 i0) 1024#32)) (iota .tc S1024x512 32 [0] iota_S1024x512_d0_w32))
        (addi (broadcast S1024x512 (Scalar.muli (BitVec.ofNat 32 i1) 512#32)) (iota .tc S1024x512 32 [1] iota_S1024x512_d1_w32))
        (ix2 r c)
      = if 1024 * i0 + r.val = 512 * i1 + c.val then 1#1 else 0#1 := by
  show IntOp.cmpi .eq
      (IntOp.addi (Scalar.muli (BitVec.ofNat 32 i0) 1024#32) (iota .tc S1024x512 32 [0] iota_S1024x512_d0_w32 (ix2 r c)))
      (IntOp.addi (Scalar.muli (BitVec.ofNat 32 i1) 512#32) (iota .tc S1024x512 32 [1] iota_S1024x512_d1_w32 (ix2 r c))) = _
  rw [iota_single_apply, iota_single_apply]
  exact mask_word i0 i1 r.val c.val h0 h1 r.isLt c.isLt

/-- A select on that comparison picks its first operand on the diagonal and its second off it. -/
theorem masked_apply (i0 i1 : ℕ) (h0 : i0 < 4) (h1 : i1 < 8) (z t : FVec Ideal S1024x512 .f32) (r : Fin 1024) (c : Fin 512) :
    select (cmpi .eq
        (addi (broadcast S1024x512 (Scalar.muli (BitVec.ofNat 32 i0) 1024#32)) (iota .tc S1024x512 32 [0] iota_S1024x512_d0_w32))
        (addi (broadcast S1024x512 (Scalar.muli (BitVec.ofNat 32 i1) 512#32)) (iota .tc S1024x512 32 [1] iota_S1024x512_d1_w32)))
        z t (ix2 r c)
      = if 1024 * i0 + r.val = 512 * i1 + c.val then z (ix2 r c) else t (ix2 r c) := by
  refine (select_apply _ _ _ _).trans ?_
  rw [mask_apply i0 i1 h0 h1 r c]
  split
  · exact select_one _ _
  · exact select_zero _ _

/-- A matrix's rows each divided by the row's clamped norm — the root of the row's sum of squares, floored by a
    fixed word — is, entry by entry, the unit row. -/
theorem unit_apply {R : ℕ} (x : FVec Ideal ⟨2, ![R, 512]⟩ .f32)
    (hred : (⟨2, ![R, 512]⟩ : Shape).Reduces [1] ⟨1, ![R]⟩) (hφ : FKind.Formats .f32)
    (hacc : (0x00000000#32 : BitVec 32) = FKind.add.neutral .f32 hφ)
    (hcast : (⟨1, ![R]⟩ : Shape).ShapeCasts ⟨2, ![R, 1]⟩) (hb : (⟨2, ![R, 1]⟩ : Shape).Broadcasts ⟨2, ![R, 512]⟩)
    (p : Fin R) (d : Fin 512) :
    divf x (broadcastTo ⟨2, ![R, 512]⟩
        (maximumf (sqrt (shapeCast ⟨2, ![R, 1]⟩ (multiReduction (F := Ideal) .add [1] ⟨1, ![R]⟩ (mulf x x) 0x00000000#32 hred hφ hacc) hcast))
          (broadcast ⟨2, ![R, 1]⟩ (Scalar.ofBits (F := Ideal) .f32 0x322BCC77#32))) hb) (ix2 p d)
      = Cert.CosSpec.unitRow x p d := by
  unfold Cert.CosSpec.unitRow Cert.CosSpec.rowNorm Cert.CosSpec.floorWord
  refine (divf_apply _ _ _).trans (congrArg (Ideal.div (x (ix2 p d))) ?_)
  refine (Cert.LibPlainDot.broadcastTo_a1_ab_apply _ hb p d).trans ?_
  refine (maximumf_apply _ _ _).trans ?_
  refine congrArg (max · (Ideal.ofBits .f32 0x322BCC77#32)) ?_
  show Ideal.sqrt (shapeCast ⟨2, ![R, 1]⟩ _ hcast (ix2 p (0 : Fin 1))) = _
  refine congrArg Ideal.sqrt ?_
  refine (shapeCast_a_a1_apply _ hcast p 0).trans ?_
  exact rowReduce_apply _ _ hred hφ hacc p

/-! The four coordinate facts of the tile product's dimension numbers: the left operand is read at the entry's row and
    the contraction position, the right at the contraction position and the entry's column. -/

theorem dot_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem dot_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem dot_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem dot_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The tile product at (r, c): the inner product of row r of the left matrix and row c of the right one (the right
    operand enters transposed; the narrowing of both is the identity on the extended reals). -/
theorem dot_apply (a : FVec Ideal S1024x512 .f32) (b : FVec Ideal S512x512 .f32) (r : Fin 1024) (c : Fin 512) :
    matmul dot_S1024x512_S512x512_S1024x512_1_0_0_1_n_n none (truncf .bf16 a bitsLt_bf16_f32)
        (transpose S512x512 [1, 0] (truncf .bf16 b bitsLt_bf16_f32) transposes_S512x512_p1_0_S512x512)
        (constant (F := Ideal) S1024x512 .f32 0x00000000#32) (ix2 r c)
      = ∑ k : Fin 512, a (ix2 r k) * b (ix2 c k) := by
  refine (Ideal.matmul_constant_zero_apply _ none _ _ _).trans ?_
  refine (Cert.LibPlainDot.sum_plain dot_S1024x512_S512x512_S1024x512_1_0_0_1_n_n rfl rfl dot_lhs_0 dot_lhs_1 dot_rhs_0 dot_rhs_1
    (truncf .bf16 a bitsLt_bf16_f32)
    (transpose S512x512 [1, 0] (truncf .bf16 b bitsLt_bf16_f32) transposes_S512x512_p1_0_S512x512) r c).trans ?_
  refine Finset.sum_congr rfl fun k _ => congrArg (a (ix2 r k) * ·) ?_
  exact transpose_ix2_apply (truncf .bf16 b bitsLt_bf16_f32) transposes_S512x512_p1_0_S512x512 k c

/-- Row r of the masked similarity tile summed along its columns. -/
theorem rowSums_apply (i : grid0.Coords) (x : Vec Ideal S1024x512 .f32) (y : Vec Ideal S512x512 .f32) (r : Fin 1024) :
    k0_pay4 (F := Ideal) i x y (ix1 r)
      = ∑ c : Fin 512, Cert.CosSpec.offDiag x y (1024 * (i 0).val) (512 * (i 1).val) r c := by
  have h0 : (i 0).val < 4 := (i 0).isLt
  have h1 : (i 1).val < 8 := (i 1).isLt
  unfold k0_pay4
  rw [shapeCast_self x, shapeCast_self y]
  -- the outer sum runs over the columns of row r
  refine (rowReduce_apply _ _ _ _ _ r).trans ?_
  refine Finset.sum_congr rfl fun c _ => ?_
  -- the entry (r, c): zero on the diagonal, the tile product off it
  refine (masked_apply (i 0).val (i 1).val h0 h1 _ _ r c).trans ?_
  unfold Cert.CosSpec.offDiag
  by_cases h : 1024 * (i 0).val + r.val = 512 * (i 1).val + c.val
  · rw [if_pos h, if_pos h]
    exact Ideal.ofBits_zero_f32
  · rw [if_neg h, if_neg h]
    -- the product's entry is the inner product of the two unit rows
    refine (dot_apply _ _ r c).trans ?_
    unfold Cert.CosSpec.cosim
    exact Finset.sum_congr rfl fun k _ =>
      congrArg₂ (· * ·) (unit_apply x _ _ _ _ _ r k) (unit_apply y _ _ _ _ _ c k)

/-- The accumulator update: the old value plus the sum of the row sums. -/
theorem accum_apply (v40 : FVec Ideal S1024 .f32) (v44 : Vec Ideal S1x1 .f32) (j : S1x1.Idx) :
    k0_pay1 (F := Ideal) v40 v44 j = v44 j + ∑ r : Fin 1024, v40 (ix1 r) := by
  obtain ⟨u, w, rfl⟩ : ∃ (u : Fin 1) (w : Fin 1), j = ix2 u w := ⟨j 0, j 1, eq_ix2 j⟩
  unfold k0_pay1
  rw [shapeCast_self]
  refine (addf_apply _ _ _).trans (congrArg (v44 (ix2 u w) + ·) ?_)
  refine (shapeCast_a_1a_apply _ _ u w).trans ?_
  refine (colReduce_apply _ _ _ _ _ w).trans ?_
  exact Finset.sum_congr rfl fun k _ => shapeCast_a_a1_apply v40 _ k 0

/-- The last point's quotient by the count. -/
theorem mean_apply (v54 : Vec Ideal S1x1 .f32) (j : S1x1.Idx) :
    k0_pay2 (F := Ideal) v54 j = Ideal.div (v54 j) Cert.CosSpec.countWord := rfl

/-- The reset value is zero. -/
theorem reset_apply (j : S1x1.Idx) : k0_pay3 (F := Ideal) j = (0 : EReal) := by
  unfold k0_pay3
  rw [shapeCast_self]
  exact Ideal.ofBits_zero_f32

end Cert.KernelIdeal.Payload

end
-- ==== Proof.KernelLoss.lean ====
/-
  The kernel program's result at the ideal instance is the loss. Point t of the 4 x 8 grid reads rows
  1024 (t / 8) .. of the first matrix and rows 512 (t % 8) .. of the second, and adds to the accumulator the sum of the
  similarity matrix over that rectangle with the diagonal entries replaced by zero; after the last point the accumulator
  holds the sum over all 32 rectangles, which tile the matrix, and the output is that sum over the count.
-/
import proofs.«161010_j90417651516231_1_alg».proof.Proof.KernelAcc
import proofs.«161010_j90417651516231_1_alg».proof.Proof.Payload
import proofs.«161010_j90417651516231_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Acc Cert.CosSpec

variable (m : (ℓ : Loc nD τ sig) → Buf (Elt Ideal) ℓ) (ρ : Dev nD → PrngReg)

/-- The two matrices as the region finds them. -/
abbrev Xm (c : Dev nD) : Mat 4096 := V m c main_v0
abbrev Ym (c : Dev nD) : Mat 4096 := V m c main_v1

/-- They are the two arguments, reshaped. -/
theorem Xm_eq (c : Dev nD) :
    Xm m c = shapeCast S4096x512 (m ((c.tc : Thread nD τ).loc main_arg0)) shapeCasts_S4096x512x1x1_S4096x512 := by
  show StableHlo.after hostOps0 (fun b => m (c, b)) (Proc.devRef .tc main_v0) = _
  after_results
  rfl
theorem Ym_eq (c : Dev nD) :
    Ym m c = shapeCast S4096x512 (m ((c.tc : Thread nD τ).loc main_arg1)) shapeCasts_S4096x512x1x1_S4096x512 := by
  show StableHlo.after hostOps0 (fun b => m (c, b)) (Proc.devRef .tc main_v1) = _
  after_results
  rfl

theorem lt32 (t : Fin cfg0.N) : t.val < 32 := lt_of_lt_of_eq t.isLt (show cfg0.N = 32 from N_0)

/-- The grid is 4 x 8, row-major: point t sits at (t / 8, t % 8); the first window's block index is its row, the
    second's its column. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)
theorem idx_x : ∀ t : Fin cfg0.N, win0_0.index t 0 = t.val / 8 ∧ win0_0.index t 1 = 0 :=
  (by decide +kernel : ∀ t : Fin grid0.N, win0_0.index t 0 = t.val / 8 ∧ win0_0.index t 1 = 0)
theorem idx_y : ∀ t : Fin cfg0.N, win0_1.index t 0 = t.val % 8 ∧ win0_1.index t 1 = 0 :=
  (by decide +kernel : ∀ t : Fin grid0.N, win0_1.index t 0 = t.val % 8 ∧ win0_1.index t 1 = 0)

/-- Point t's block of the first matrix is its rows 1024 (t / 8) .., -/
theorem xblk_eq (c : Dev nD) (t : Fin cfg0.N) :
    xblk m c t = rowsFrom 1024 (1024 * (t.val / 8)) (by have := lt32 t; omega) (Xm m c) := by
  funext j
  show iblk m c 0 t j = _
  unfold iblk rowsFrom
  rw [View.read_apply]
  show V m c main_v0 _ = V m c main_v0 _
  congr 1
  funext a
  apply Fin.ext
  match a with
  | ⟨0, _⟩ => show win0_0.index t 0 * 1024 + 1 * (j 0).val = 1024 * (t.val / 8) + (j 0).val; rw [(idx_x t).1]; omega
  | ⟨1, _⟩ => show win0_0.index t 1 * 512 + 1 * (j 1).val = (j 1).val; rw [(idx_x t).2]; omega

/-- and of the second its rows 512 (t % 8) .. -/
theorem yblk_eq (c : Dev nD) (t : Fin cfg0.N) :
    yblk m c t = rowsFrom 512 (512 * (t.val % 8)) (by have := lt32 t; omega) (Ym m c) := by
  funext j
  show iblk m c 1 t j = _
  unfold iblk rowsFrom
  rw [View.read_apply]
  show V m c main_v1 _ = V m c main_v1 _
  congr 1
  funext a
  apply Fin.ext
  match a with
  | ⟨0, _⟩ => show win0_1.index t 0 * 512 + 1 * (j 0).val = 512 * (t.val % 8) + (j 0).val; rw [(idx_y t).1]; omega
  | ⟨1, _⟩ => show win0_1.index t 1 * 512 + 1 * (j 1).val = (j 1).val; rw [(idx_y t).2]; omega

/-- What point t adds to the accumulator is the sum over its rectangle of the similarity matrix. -/
theorem rows_sum (c : Dev nD) (t : Fin cfg0.N) :
    ∑ r : Fin 1024, rows m c t (ix1 r) = pointSum (Xm m c) (Ym m c) ⟨t.val, lt32 t⟩ := by
  unfold pointSum tileSum
  refine Finset.sum_congr rfl fun r _ => ?_
  show k0_pay4 (F := Ideal) (grid0.coords t) (xblk m c t) (yblk m c t) (ix1 r) = _
  rw [Payload.rowSums_apply, (coords_val t).1, (coords_val t).2, xblk_eq, yblk_eq]

/-- The rectangle sums indexed by a natural number, zero past the grid. -/
def pt (c : Dev nD) (k : ℕ) : EReal := if h : k < 32 then pointSum (Xm m c) (Ym m c) ⟨k, h⟩ else 0

/-- The accumulator after point n holds the sum of the rectangles of points 0 .. n. -/
theorem chain_eq (c : Dev nD) (j : S1x1.Idx) : ∀ (n : ℕ) (h : n < cfg0.N),
    chain m c n h j = ∑ k ∈ Finset.range (n + 1), pt m c k
  | 0, h => by
    show k0_pay1 (F := Ideal) (rows m c ⟨0, h⟩) (k0_pay3 (F := Ideal)) j = _
    rw [Payload.accum_apply, Payload.reset_apply, zero_add, rows_sum, Finset.sum_range_one]
    unfold pt
    rw [dif_pos (by decide)]
  | n + 1, h => by
    show k0_pay1 (F := Ideal) (rows m c ⟨n + 1, h⟩) (chain m c n (Nat.lt_of_succ_lt h)) j = _
    rw [Payload.accum_apply, chain_eq c j n (Nat.lt_of_succ_lt h), rows_sum, Finset.sum_range_succ _ (n + 1)]
    congr 1
    unfold pt
    rw [dif_pos (lt32 ⟨n + 1, h⟩)]

/-- The output word is the loss of the two matrices. -/
theorem result_eq (c : Dev nD) : result m c = fun _ => loss (Xm m c) (Ym m c) := by
  funext j
  show k0_pay2 (F := Ideal) (chain m c 31 tLast.isLt) j = _
  rw [Payload.mean_apply, chain_eq m c j 31 tLast.isLt]
  unfold loss
  rw [tileSum_eq_sum_points, Finset.sum_range]
  refine congrArg (fun z => Ideal.div z countWord) (Finset.sum_congr rfl fun t _ => ?_)
  unfold pt
  rw [dif_pos t.isLt]

/-- The kernel program's run at the ideal instance: its scalar result is the loss of the two arguments reshaped to
    4096 x 512, and the arguments end unchanged. -/
theorem run : θ_run defs (onTc (τ := τ) (main (F := Ideal))) ⟨m, fun _ => 0, ρ⟩ fun r => ∀ c : Dev nD,
      r.2.mem ((c.tc : Thread nD τ).loc main_v3)
        = (fun _ => loss (shapeCast S4096x512 (m ((c.tc : Thread nD τ).loc main_arg0)) shapeCasts_S4096x512x1x1_S4096x512)
            (shapeCast S4096x512 (m ((c.tc : Thread nD τ).loc main_arg1)) shapeCasts_S4096x512x1x1_S4096x512))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [result_eq, Xm_eq, Ym_eq]; rfl), (h c).2⟩) (Acc.run m ρ)

end Cert.KernelIdeal.Loss

end
-- ==== Proof.RefValue.lean ====
/-
  The reference program's result is the loss of its two reshaped arguments.
-/
import proofs.«161010_j90417651516231_1_alg».proof.Proof.Gen.ReferenceIdeal.Read
import proofs.«161010_j90417651516231_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The word 0x3F800000 is one. -/
theorem ofBits_one_f32 : Ideal.ofBits .f32 0x3F800000#32 = 1 := by
  simp [Ideal.ofBits, Ideal.ieee]
  rw [← EReal.coe_mul]
  norm_num

/-- The first argument divided by its broadcast clamped row norms is the unit row. -/
theorem v6_eq (a0 : (⟨S4096x512x1x1, .f32⟩ : BufTy).Contents (Elt Ideal)) (n : Fin 4096) (d : Fin 512) :
    val_main_v6 (F := Ideal) a0 (ix2 n d) = Cert.CosSpec.unitRow (val_main_v0 (F := Ideal) a0) n d := by
  have e5 : idx_main_v5 (ix2 n d) = ix2 n (0 : Fin 1) :=
    funext fun a => Fin.ext (by match a with | ⟨0, _⟩ => rfl | ⟨1, _⟩ => rfl)
  have e2 : idx_main_call0_v2 (ix2 n (0 : Fin 1)) = ix1 n :=
    funext fun a => Fin.ext (by match a with | ⟨0, _⟩ => rfl)
  have e1 : ∀ k : Fin 512, idx_main_call0_v1 (ix1 n) k = ix2 n k := fun k =>
    funext fun a => Fin.ext (by match a with | ⟨0, _⟩ => rfl | ⟨1, _⟩ => rfl)
  rw [val_main_v6_apply, val_main_v5_apply, e5, val_main_v4_apply, val_main_v3_apply, val_main_cst_apply,
    val_main_v2_apply, val_main_call0_v2_apply, e2, val_main_call0_v1_apply, val_main_call0_cst_apply]
  simp only [e1, val_main_call0_v0_apply, Ideal.hostDivf_def, Ideal.maximumf_def, Ideal.hostUnary_sqrt_def,
    Ideal.mulf_def, Ideal.ofBits_def, Ideal.ofBits_zero_f32, zero_add]
  rfl

/-- The same for the second argument. -/
theorem v11_eq (a1 : (⟨S4096x512x1x1, .f32⟩ : BufTy).Contents (Elt Ideal)) (m : Fin 4096) (d : Fin 512) :
    val_main_v11 (F := Ideal) a1 (ix2 m d) = Cert.CosSpec.unitRow (val_main_v1 (F := Ideal) a1) m d := by
  have e5 : idx_main_v10 (ix2 m d) = ix2 m (0 : Fin 1) :=
    funext fun a => Fin.ext (by match a with | ⟨0, _⟩ => rfl | ⟨1, _⟩ => rfl)
  have e2 : idx_main_call1_v2 (ix2 m (0 : Fin 1)) = ix1 m :=
    funext fun a => Fin.ext (by match a with | ⟨0, _⟩ => rfl)
  have e1 : ∀ k : Fin 512, idx_main_call1_v1 (ix1 m) k = ix2 m k := fun k =>
    funext fun a => Fin.ext (by match a with | ⟨0, _⟩ => rfl | ⟨1, _⟩ => rfl)
  rw [val_main_v11_apply, val_main_v10_apply, e5, val_main_v9_apply, val_main_v8_apply, val_main_cst_0_apply,
    val_main_v7_apply, val_main_call1_v2_apply, e2, val_main_call1_v1_apply, val_main_call1_cst_apply]
  simp only [e1, val_main_call1_v0_apply, Ideal.hostDivf_def, Ideal.maximumf_def, Ideal.hostUnary_sqrt_def,
    Ideal.mulf_def, Ideal.ofBits_def, Ideal.ofBits_zero_f32, zero_add]
  rfl

/-- The contraction of the two unit-row matrices over the row length is the similarity. -/
theorem v12_eq (a0 a1 : (⟨S4096x512x1x1, .f32⟩ : BufTy).Contents (Elt Ideal)) (n m : Fin 4096) :
    val_main_v12 (F := Ideal) a0 a1 (ix2 n m)
      = Cert.CosSpec.cosim (val_main_v0 (F := Ideal) a0) (val_main_v1 (F := Ideal) a1) n m := by
  have el : ∀ k : Fin 512, lidx_main_v12 (ix2 n m) k = ix2 n k := fun k =>
    funext fun a => Fin.ext (by match a with | ⟨0, _⟩ => rfl | ⟨1, _⟩ => rfl)
  have er : ∀ k : Fin 512, ridx_main_v12 (ix2 n m) k = ix2 m k := fun k =>
    funext fun a => Fin.ext (by match a with | ⟨0, _⟩ => rfl | ⟨1, _⟩ => rfl)
  rw [val_main_v12_apply]
  unfold Cert.CosSpec.cosim
  refine Finset.sum_congr rfl fun k _ => ?_
  rw [el, er, v6_eq, v11_eq]

/-- The row word plus the zero word equals the column word exactly when the row and column numbers agree. -/
theorem diag_word (n m : Fin 4096) :
    IntOp.cmpi .eq (IntOp.addi (BitVec.ofNat 32 n.val) 0#32) (BitVec.ofNat 32 m.val)
      = if n.val = m.val then 1#1 else 0#1 := by
  have hn := n.isLt
  have hm := m.isLt
  unfold IntOp.cmpi IntOp.addi
  rw [BitVec.add_zero]
  by_cases h : n.val = m.val
  · rw [if_pos h, h, beq_self_eq_true]
    rfl
  · rw [if_neg h]
    have hne : BitVec.ofNat 32 n.val ≠ BitVec.ofNat 32 m.val := by
      intro e
      apply h
      have e' := congrArg BitVec.toNat e
      rw [BitVec.toNat_ofNat, BitVec.toNat_ofNat, Nat.mod_eq_of_lt (by omega), Nat.mod_eq_of_lt (by omega)] at e'
      exact e'
    rw [beq_eq_false_iff_ne.mpr hne]
    rfl

/-- One minus the indicator of the diagonal. -/
theorem v20_eq (n m : Fin 4096) :
    val_main_v20 (F := Ideal) (ix2 n m) = if n.val = m.val then 0 else 1 := by
  rw [val_main_v20_apply, val_main_v19_apply, val_main_cst_1_apply, val_main_v18_apply, val_main_v17_apply,
    val_main_v16_apply, val_main_v13_apply, val_main_v14_apply, val_main_v15_apply, val_main_c_apply]
  show (Ideal.ofBits .f32 0x3F800000#32 : EReal)
      - (((IntOp.cmpi .eq (IntOp.addi (BitVec.ofNat 32 n.val) 0#32) (BitVec.ofNat 32 m.val)).toNat : ℝ) : EReal) = _
  rw [ofBits_one_f32, diag_word]
  by_cases h : n.val = m.val
  · rw [if_pos h, if_pos h]
    show (1 : EReal) - (((1 : Nat) : ℝ) : EReal) = 0
    rw [Nat.cast_one, ← EReal.coe_one, ← EReal.coe_sub, sub_self, EReal.coe_zero]
  · rw [if_neg h, if_neg h]
    show (1 : EReal) - (((0 : Nat) : ℝ) : EReal) = 1
    rw [Nat.cast_zero, EReal.coe_zero, sub_zero]

/-- The similarity matrix times that mask is the similarity with the diagonal zeroed. -/
theorem v21_eq (a0 a1 : (⟨S4096x512x1x1, .f32⟩ : BufTy).Contents (Elt Ideal)) (n m : Fin 4096) :
    val_main_v21 (F := Ideal) a0 a1 (ix2 n m)
      = Cert.CosSpec.offDiag (val_main_v0 (F := Ideal) a0) (val_main_v1 (F := Ideal) a1) 0 0 n m := by
  rw [val_main_v21_apply, v12_eq, v20_eq, Ideal.mulf_def]
  unfold Cert.CosSpec.offDiag
  by_cases h : n.val = m.val
  · rw [if_pos h, if_pos (by omega : 0 + n.val = 0 + m.val), mul_zero]
  · rw [if_neg h, if_neg (by omega : ¬ 0 + n.val = 0 + m.val), mul_one]

/-- The total of the masked matrix, from the zero word, is the double sum over rows and columns. -/
theorem v22_eq (a0 a1 : (⟨S4096x512x1x1, .f32⟩ : BufTy).Contents (Elt Ideal)) (j : S_.Idx) :
    val_main_v22 (F := Ideal) a0 a1 j
      = Cert.CosSpec.tileSum (val_main_v0 (F := Ideal) a0) (val_main_v1 (F := Ideal) a1) 0 0 := by
  rw [val_main_v22_apply, val_main_cst_2_apply, Ideal.ofBits_def, Ideal.ofBits_zero_f32, zero_add]
  unfold Cert.CosSpec.tileSum
  refine (sum_idx2 _).trans ?_
  exact Finset.sum_congr rfl fun n _ => Finset.sum_congr rfl fun m _ => v21_eq a0 a1 n m

/-- The total divided by the count word is the loss. -/
theorem v23_eq (a0 a1 : (⟨S4096x512x1x1, .f32⟩ : BufTy).Contents (Elt Ideal)) (j : S_.Idx) :
    val_main_v23 (F := Ideal) a0 a1 j
      = Cert.CosSpec.loss (val_main_v0 (F := Ideal) a0) (val_main_v1 (F := Ideal) a1) := by
  rw [val_main_v23_apply, v22_eq, val_main_cst_3_apply, Ideal.hostDivf_def, Ideal.ofBits_def]
  rfl

/-- The reference's result, at its one index, is the loss of the two arguments viewed as 4096 x 512 matrices. -/
theorem ref_loss (a0 a1 : (⟨S4096x512x1x1, .f32⟩ : BufTy).Contents (Elt Ideal)) (j : S_.Idx) :
    val_main_v23 (F := Ideal) a0 a1 j
      = Cert.CosSpec.loss (shapeCast S4096x512 a0 shapeCasts_S4096x512x1x1_S4096x512)
          (shapeCast S4096x512 a1 shapeCasts_S4096x512x1x1_S4096x512) :=
  v23_eq a0 a1 j

end Cert.ReferenceIdeal.RefValue

end
-- ==== Proof.lean ====
/-
  The certificate of a tiled cosine-similarity loss against its plain reference.

  Both programs take two 4096 x 512 matrices (given with two trailing unit axes), divide every row by its norm
  clamped from below, form the 4096 x 4096 matrix of inner products of the unit rows, replace its diagonal by zero and
  return the mean of its entries. The kernel walks the matrix in 4 x 8 rectangles of 1024 x 512 entries, masks the
  diagonal with a select on global row and column numbers, sums each rectangle into a one-word accumulator carried
  across the grid and divides by 2^24 at the last point; the reference multiplies by one minus the identity matrix,
  sums all entries at once and divides by the same word. On the extended reals the two agree: multiplying by one or
  by zero is the select, the 32 rectangles tile the matrix, and a finite sum may be taken in any grouping; no use is
  made of the inputs being finite. The word-level kernel and its idealization are the same text (the ideal pass
  rewrote nothing), so that conjunct is trivial; the three frames are the generated frame runs.
-/
import proofs.«161010_j90417651516231_1_alg».proof.Defs
import proofs.«161010_j90417651516231_1_alg».proof.Proof.Gen.Kernel
import proofs.«161010_j90417651516231_1_alg».proof.Proof.Gen.Kernel.Skeleton
import proofs.«161010_j90417651516231_1_alg».proof.Proof.Gen.Kernel.Launch
import proofs.«161010_j90417651516231_1_alg».proof.Proof.Gen.Kernel.Points
import proofs.«161010_j90417651516231_1_alg».proof.Proof.Gen.Kernel.Frame
import proofs.«161010_j90417651516231_1_alg».proof.Proof.Gen.KernelIdeal
import proofs.«161010_j90417651516231_1_alg».proof.Proof.Gen.KernelIdeal.Skeleton
import proofs.«161010_j90417651516231_1_alg».proof.Proof.Gen.KernelIdeal.Launch
import proofs.«161010_j90417651516231_1_alg».proof.Proof.Gen.KernelIdeal.Points
import proofs.«161010_j90417651516231_1_alg».proof.Proof.Gen.KernelIdeal.Frame
import proofs.«161010_j90417651516231_1_alg».proof.Proof.Gen.ReferenceIdeal
import proofs.«161010_j90417651516231_1_alg».proof.Proof.Gen.Pre_finite_inputs
import proofs.«161010_j90417651516231_1_alg».proof.Proof.Gen.ReferenceIdeal.Run
import proofs.«161010_j90417651516231_1_alg».proof.Proof.Gen.ReferenceIdeal.Read
import proofs.«161010_j90417651516231_1_alg».proof.Proof.KernelLoss
import proofs.«161010_j90417651516231_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the same two matrices. -/
theorem algebraic : Cert.algebraic_KernelIdeal_ReferenceIdeal := by
  intro m ρ m' ρ' _ hagree
  refine ⟨_, Cert.KernelIdeal.Loss.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v23_eq _ _)).trans ?_
  rw [(hagree c).1, (hagree c).2]
  exact funext fun j => Cert.ReferenceIdeal.RefValue.ref_loss _ _ j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
